-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S25000 : S_.BroadcastsInDim S25000 (![] : Fin 0 → Fin S25000.rank)
  reducesTo_S25000_S_d0 : S25000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S25000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S25000 .f32 := Host.absf main_arg4
  let main_cst_6 : FVec F S_ .f32 := constant S_ .f32 0x7F800000#32
  let main_v20 : FVec F S25000 .f32 := broadcastInDim S25000 ![] bcast_S_S25000 main_cst_6
  let main_v21 : IVec S25000 1 := cmpf .olt main_v19 main_v20
  let main_c_7 : IVec S_ 1 := constantI S_ 1 1#1
  let main_v22 : IVec S_ 1 := (fun x v => Host.reduce IntOp.andi x v reducesTo_S25000_S_d0 h_S_) main_v21 main_c_7
  let main_v23 : IVec S_ 1 := andi main_v18 main_v22
  main_v23

def fn {F : FTy → Type} [FloatOps F] (main_arg0 : FVec F S50000x512 .f32) (main_arg1 : FVec F S512x512 .f32) (main_arg2 : FVec F S25000 .f32) (main_arg3 : FVec F S50000 .f32) (main_arg4 : FVec F S25000 .f32) (main_arg5 : IVec S400000 32) (main_arg6 : IVec S400000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S25000 .f32 := Host.absf main_arg2
  let main_cst_2 : FVec F S_ .f32 := constant S_ .f32 0x7F800000#32
  let main_v10 : FVec F S25000 .f32 := broadcastInDim S25000 ![] bcast_S_S25000 main_cst_2
  let main_v11 : IVec S25000 1 := cmpf .olt main_v9 main_v10
  let main_c_3 : IVec S_ 1 := constantI S_ 1 1#1
  let main_v12 : IVec S_ 1 := (fun x v => Host.reduce IntOp.andi x v reducesTo_S25000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_v13 main_v16
-- ==== Kernel.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S2000x512 : Shape := ⟨2, ![2000, 512]⟩
abbrev S_ : Shape := ⟨0, ![]⟩
abbrev S400000x1 : Shape := ⟨2, ![400000, 1]⟩
abbrev S400000x512 : Shape := ⟨2, ![400000, 512]⟩
abbrev S25000x512 : Shape := ⟨2, ![25000, 512]⟩
abbrev S25000x1 : Shape := ⟨2, ![25000, 1]⟩
abbrev S50000x1 : Shape := ⟨2, ![50000, 1]⟩

abbrev nBuf : Space → Nat
  | .hbm => 44
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S25000, .f32⟩
  | .hbm, ⟨3, _⟩ => ⟨S50000, .f32⟩
  | .hbm, ⟨4, _⟩ => ⟨S25000, .f32⟩
  | .hbm, ⟨5, _⟩ => ⟨S400000, .i32⟩
  | .hbm, ⟨6, _⟩ => ⟨S400000, .i32⟩
  | .hbm, ⟨7, _⟩ => ⟨S50000x512, .bf16⟩
  | .hbm, ⟨8, _⟩ => ⟨S512x512, .f32⟩
  | .hbm, ⟨9, _⟩ => ⟨S512x512, .bf16⟩
  | .hbm, ⟨10, _⟩ => ⟨S50000x512, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S25000x512, .f32⟩
  | .hbm, ⟨22, _⟩ => ⟨S400000x1, .i32⟩
  | .hbm, ⟨23, _⟩ => ⟨S25000x512, .f32⟩
  | .hbm, ⟨24, _⟩ => ⟨S25000, .f32⟩
  | .hbm, ⟨25, _⟩ => ⟨S25000x1, .f32⟩
  | .hbm, ⟨26, _⟩ => ⟨S25000x512, .f32⟩
  | .hbm, ⟨27, _⟩ => ⟨S25000x512, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x512, .f32⟩
  | .hbm, ⟨37, _⟩ => ⟨S_, .f32⟩
  | .hbm, ⟨38, _⟩ => ⟨S50000x512, .f32⟩
  | .hbm, ⟨39, _⟩ => ⟨S400000x1, .i32⟩
  | .hbm, ⟨40, _⟩ => ⟨S50000x512, .f32⟩
  | .hbm, ⟨41, _⟩ => ⟨S50000x1, .f32⟩
  | .hbm, ⟨42, _⟩ => ⟨S50000x512, .f32⟩
  | .hbm, ⟨43, _⟩ => ⟨S50000x512, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  transposes_S512x512_S512x512_1_0 : S512x512.Transposes [1, 0] S512x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  dot_S2000x512_S512x512_S2000x512_1_0_0_1_n_n_wf : DotDims.WF S2000x512 S512x512 S2000x512 [1] [0] [0] [1] [] []
  gather_S50000x512_S400000x1_S400000x512_1_0_n_n_0_1_1512_wf : GatherDims.WF S50000x512 S400000x1 S400000x512 [1] [0] [] [0] [] 1 ![1, 512]
  scatter_S25000x512_S400000x1_S400000x512_1_0_0_1_wf : ScatterDims.WF S25000x512 S400000x1 S400000x512 [1] [0] [0] 1
  gather_S25000x512_S400000x1_S400000x512_1_0_n_n_0_1_1512_wf : GatherDims.WF S25000x512 S400000x1 S400000x512 [1] [0] [] [0] [] 1 ![1, 512]
  scatter_S50000x512_S400000x1_S400000x512_1_0_0_1_wf : ScatterDims.WF S50000x512 S400000x1 S400000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S25000 : Shape := ⟨1, ![25000]⟩
abbrev S50000 : Shape := ⟨1, ![50000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S25000x512 : Shape := ⟨2, ![25000, 512]⟩
abbrev S25000x1 : Shape := ⟨2, ![25000, 1]⟩
abbrev S50000x1 : Shape := ⟨2, ![50000, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S25000, .f32⟩
  | .hbm, ⟨3, _⟩ => ⟨S50000, .f32⟩
  | .hbm, ⟨4, _⟩ => ⟨S25000, .f32⟩
  | .hbm, ⟨5, _⟩ => ⟨S400000, .i32⟩
  | .hbm, ⟨6, _⟩ => ⟨S400000, .i32⟩
  | .hbm, ⟨7, _⟩ => ⟨S50000x512, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x512, .f32⟩
  | .hbm, ⟨17, _⟩ => ⟨S_, .f32⟩
  | .hbm, ⟨18, _⟩ => ⟨S25000x512, .f32⟩
  | .hbm, ⟨19, _⟩ => ⟨S400000x1, .i32⟩
  | .hbm, ⟨20, _⟩ => ⟨S25000x512, .f32⟩
  | .hbm, ⟨21, _⟩ => ⟨S25000, .f32⟩
  | .hbm, ⟨22, _⟩ => ⟨S25000x1, .f32⟩
  | .hbm, ⟨23, _⟩ => ⟨S25000x512, .f32⟩
  | .hbm, ⟨24, _⟩ => ⟨S25000x512, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x512, .f32⟩
  | .hbm, ⟨34, _⟩ => ⟨S_, .f32⟩
  | .hbm, ⟨35, _⟩ => ⟨S50000x512, .f32⟩
  | .hbm, ⟨36, _⟩ => ⟨S400000x1, .i32⟩
  | .hbm, ⟨37, _⟩ => ⟨S50000x512, .f32⟩
  | .hbm, ⟨38, _⟩ => ⟨S50000x1, .f32⟩
  | .hbm, ⟨39, _⟩ => ⟨S50000x512, .f32⟩
  | .hbm, ⟨40, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  dot_S50000x512_S512x512_S50000x512_1_1_0_0_n_n_wf : DotDims.WF S50000x512 S512x512 S50000x512 [1] [1] [0] [0] [] []
  gather_S50000x512_S400000x1_S400000x512_1_0_n_n_0_1_1512_wf : GatherDims.WF S50000x512 S400000x1 S400000x512 [1] [0] [] [0] [] 1 ![1, 512]
  scatter_S25000x512_S400000x1_S400000x512_1_0_0_1_wf : ScatterDims.WF S25000x512 S400000x1 S400000x512 [1] [0] [0] 1
  gather_S25000x512_S400000x1_S400000x512_1_0_n_n_0_1_1512_wf : GatherDims.WF S25000x512 S400000x1 S400000x512 [1] [0] [] [0] [] 1 ![1, 512]
  scatter_S50000x512_S400000x1_S400000x512_1_0_0_1_wf : ScatterDims.WF S50000x512 S400000x1 S400000x512 [1] [0] [0] 1

variable [Facts₀]

def dot_S50000x512_S512x512_S50000x512_1_1_0_0_n_n : DotDims S50000x512 S512x512 S50000x512 where
  lhsContracting := [1]
  rhsContracting := [1]
  lhsNonContracting := [0]
  rhsNonContracting := [0]
  lhsBatch := []
  rhsBatch := []
  wf := dot_S50000x512_S512x512_S50000x512_1_1_0_0_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.KernelDot.lean ====
/-
  The body of the projection kernel multiplies a block of 2000 rows of the left matrix (2000 × 512) by the whole right
  matrix (512 × 512) on the matrix unit, into a zero accumulator. Its dimension numbers are the plain "rows by columns"
  ones: axis 1 of the left operand is contracted with axis 0 of the right one. So at the extended reals the entry (p, q)
  of what the body stores is the sum over κ of left (p, κ) · right (κ, q): a row of the block against a column of the
  right matrix. The two shape casts around the loads are casts of a shape to itself and change nothing.
-/
import proofs.«137817_j27831388078171_1_alg».proof.Proof.Gen.KernelIdeal.Skeleton
import proofs.«137817_j27831388078171_1_alg».proof.Proof.LibSageSpec
import Idealize.ShloMosaic.Lib.Pipeline.Value
import Idealize.ShloMosaic.Lib.ValueIdx
import Idealize.ShloMosaic.PureOps.Ideal.Laws

noncomputable section

namespace Cert.KernelIdeal.Proj

open Cert.KernelIdeal Cert.KernelIdeal.Gen Idealize.ShloMosaic Idealize.ShloMosaic.ValueIdx Idealize.ShloMosaic.SageSpec

/-- On the left operand's row axis the index is the result's row. -/
theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl

/-- On the left operand's column axis, the contracted one, it is the contraction position. -/
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q

/-- On the right operand's row axis, the contracted one, it is the contraction position. -/
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q

/-- On the right operand's column axis it is the result's column. -/
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The body's product is a plain [2000 × 512] · [512 × 512] one. -/
theorem plain : PlainDot (n := 2000) (k := 512) (m := 512) dot_S2000x512_S512x512_S2000x512_1_0_0_1_n_n where
  rank := rfl
  size := fun _ => rfl
  l0 := lhs_axis0
  l1 := fun i q _ => lhs_axis1 i q
  r0 := fun i q _ => rhs_axis0 i q
  r1 := rhs_axis1

/-- What the body stores, at (p, q): row p of the loaded block of the left matrix against column q of the right matrix. -/
theorem stored_at (x0 : FVec Ideal S2000x512 .bf16) (x1 : FVec Ideal S512x512 .bf16) (j : S2000x512.Idx) :
    k0_pay1 (F := Ideal) x0 x1 j = rowDot (n := 2000) (k := 512) (m := 512) (fun i => x0 i) (fun i => x1 i) (j 0) (j 1) := by
  unfold k0_pay1
  simp only [shapeCast_self]
  exact matmul_zero_at plain none x0 x1 j

end Cert.KernelIdeal.Proj

end
-- ==== Proof.KernelBlocks.lean ====
/-
  The projection, block by block. The grid has 25 points; point t stages rows 2000·t … 2000·t + 1999 of the left
  matrix, the whole right matrix, and writes back rows 2000·t … 2000·t + 1999 of the result. What it writes back at
  (p, q) is row p of its block against column q of the right matrix, that is row 2000·t + p of the whole left matrix
  against column q: the block of ONE function of the two arrays, the product whose entry (n, o) is the sum over κ of
  left (n, κ) · right (κ, o). The 25 blocks tile the 50000 rows (row n lies in block n / 2000), so after the region the
  result array holds that product.
-/
import proofs.«137817_j27831388078171_1_alg».proof.Proof.Gen.KernelIdeal.Frame
import proofs.«137817_j27831388078171_1_alg».proof.Proof.KernelDot

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx Idealize.ShloMosaic.SageSpec
open Idealize.ShloMosaic.Pipeline (Dat Cfg Window)

variable (m : (ℓ : Loc nD τ sig) → Buf (Elt Ideal) ℓ)

/-- The product of a 50000 × 512 matrix with a 512 × 512 one: entry (n, o) is row n against column o. -/
def proj (x : S50000x512.Idx → EReal) (w : S512x512.Idx → EReal) : S50000x512.Idx → EReal :=
  fun i => rowDot (n := 50000) (k := 512) (m := 512) x w (i 0) (i 1)

theorem zero_offsets : (![0, 0] : Fin 2 → Nat) = fun _ => 0 := funext fun a => by fin_cases a <;> rfl

/-- The printed index maps over the 25 points: the left matrix's block and the result's block are block t of the rows and
    the only block of the columns; the right matrix's block is its only one. -/
theorem index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, κ) of the left matrix's block at point t is entry (2000·t + p, κ) of the array the region stages. -/
theorem left_block_at (c : Dev nD) (t : Fin cfg0.N) (y : S2000x512.Idx) (i : S50000x512.Idx)
    (h0 : (i 0).val = t.val * 2000 + (y 0).val) (h1 : (i 1).val = (y 1).val) :
    iblk m c 0 t y = V m c main_v0 i := by
  obtain ⟨e0, e1, e2, e3, e4, e5⟩ := index_maps t
  show V m c main_v0 (((cfg0.win 0).blk t).view.emb y) = V m c main_v0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 512 + 1 * (y 1).val = (i 1).val; omega

/-- The right matrix's block at any point is the whole array the region stages. -/
theorem right_block_at (c : Dev nD) (t : Fin cfg0.N) (y : S512x512.Idx) :
    iblk m c 1 t y = V m c main_v2 y := by
  obtain ⟨e0, e1, e2, e3, e4, e5⟩ := index_maps t
  show V m c main_v2 (((cfg0.win 1).blk t).view.emb y) = V m c main_v2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- WHAT POINT t WRITES BACK is block t of the product of the two staged arrays. -/
theorem flushed_eq (c : Dev nD) (t : Fin cfg0.N) :
    (dats m 0 c).flushed 2 t = ((cfg0.win 2).blk t).view.read (Elt Ideal) (proj (V m c main_v0) (V m c main_v2)) := by
  show (cfg0.win 2).cut (grid0.coords t) ((dats m 0 c).after 2 t) = _
  rw [after0_2]
  unfold out0_2
  rw [View.canon_unit_zero zero_offsets]
  simp only [View.ld_unit_zero (S := S2000x512) zero_offsets, View.ld_unit_zero (S := S512x512) zero_offsets]
  obtain ⟨e0, e1, e2, e3, e4, e5⟩ := index_maps t
  funext j
  show k0_pay1 (F := Ideal) (iblk m c 0 t) (iblk m c 1 t) j
    = proj (V m c main_v0) (V m c main_v2) (((cfg0.win 2).blk t).view.emb j)
  refine (stored_at (iblk m c 0 t) (iblk m c 1 t) j).trans ?_
  unfold proj rowDot
  refine Finset.sum_congr rfl fun κ _ => ?_
  have hl : iblk m c 0 t (ix2 (j 0) κ) = V m c main_v0 (ix2 ((((cfg0.win 2).blk t).view.emb j) 0) κ) :=
    left_block_at m c t (ix2 (j 0) κ) (ix2 ((((cfg0.win 2).blk t).view.emb j) 0) κ)
      (by show win0_2.index t (0 : Fin 2) * 2000 + 1 * (j 0).val = t.val * 2000 + (j 0).val; omega) rfl
  have hr : iblk m c 1 t (ix2 κ (j 1)) = V m c main_v2 (ix2 κ ((((cfg0.win 2).blk t).view.emb j) 1)) := by
    rw [right_block_at m c t (ix2 κ (j 1))]
    refine congrArg _ (funext fun a => Fin.ext ?_)
    match a with
    | ⟨0, _⟩ => rfl
    | ⟨1, _⟩ => show (j 1).val = win0_2.index t (1 : Fin 2) * 512 + 1 * (j 1).val; omega
  exact congrArg₂ (· * ·) hl hr

/-- An index of the result array is in point t's block iff each coordinate is in the block's range on its axis. -/
theorem mem_block (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v3).slice (win0_2.rect t)).set ↔ _
  rw [View.set_slice_whole, Rect.mem_set_unit]
  exact Iff.rfl

/-- Row n of the result lies in the block of point n / 2000, which writes it back. -/
theorem covered (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  have hlt : (i 0).val / 2000 < cfg0.N := by rw [hN]; omega
  obtain ⟨e0, e1, e2, e3, e4, e5⟩ := index_maps ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 512 ≤ (i 1).val
      ∧ (i 1).val < win0_2.index ⟨(i 0).val / 2000, hlt⟩ (1 : Fin 2) * 512 + 512
    omega

/-- THE RESULT ARRAY after the region is the product of the two staged arrays. -/
theorem final (c : Dev nD) : (dats m 0 c).arrAt 2 cfg0.N = proj (V m c main_v0) (V m c main_v2) :=
  (dats m 0 c).arrAt_eq_of_cover 2 _ (fun t _ => flushed_eq m c t) covered

end Cert.KernelIdeal.Proj

end
-- ==== Proof.HostPrefix.lean ====
/-
  The two arrays the region stages, read at the extended reals. The left one is the left argument narrowed to bf16, and
  at the extended reals a change of format is the identity: it IS the left argument X. The right one is the weight
  matrix W transposed and then narrowed: its entry (κ, o) is W (o, κ).
-/
import proofs.«137817_j27831388078171_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Proj

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The staged left array is the left argument. -/
theorem left_staged (c : Dev nD) (i : S50000x512.Idx) :
    V m c main_v0 i = m ((c : Thread nD τ).loc main_arg0) i := by
  have e : V m c main_v0
      = (truncf (F := Ideal) .bf16 (m ((c : Thread nD τ).loc main_arg0) : FVec Ideal S50000x512 .f32) bitsLt_bf16_f32
          : FVec Ideal S50000x512 .bf16) := by
    show StableHlo.after hostOps0 (fun b => m (c, b)) (Proc.devRef .tc main_v0) = _
    after_results
  rw [e]
  exact truncf_apply _ _ i

/-- The staged right array at (κ, o) is the weight matrix at (o, κ). -/
theorem right_staged (c : Dev nD) (κ o : Fin 512) :
    V m c main_v2 (ix2 κ o) = m ((c : Thread nD τ).loc main_arg1) (ix2 o κ) := by
  have e : V m c main_v2
      = (truncf (F := Ideal) .bf16 (transpose S512x512 [1, 0] (m ((c : Thread nD τ).loc main_arg1) : FVec Ideal S512x512 .f32)
            transposes_S512x512_S512x512_1_0 : FVec Ideal S512x512 .f32) bitsLt_bf16_f32 : FVec Ideal S512x512 .bf16) := by
    show StableHlo.after hostOps0 (fun b => m (c, b)) (Proc.devRef .tc main_v2) = _
    after_results
  rw [e, truncf_apply]
  exact transpose_apply _ _ _ (ix2 κ o) (ix2 o κ) (fun b => by
    match b with
    | ⟨0, _⟩ => rfl
    | ⟨1, _⟩ => rfl)

end Cert.KernelIdeal.Proj

end
-- ==== Proof.Bridge.lean ====
/-
  The two projections are one function. The kernel's is X times the staged right matrix, rows against columns:
  entry (n, o) is the sum over κ of X (n, κ) · Wt (κ, o), where Wt (κ, o) = W (o, κ). The reference's is the product
  contracting axis 1 of X with axis 1 of W: entry (n, o) is the sum over κ of X (n, κ) · W (o, κ). Term by term the same
  extended real, so no law of arithmetic is needed at all, and in particular no finiteness.
-/
import proofs.«137817_j27831388078171_1_alg».proof.Proof.Gen.ReferenceIdeal.Read
import proofs.«137817_j27831388078171_1_alg».proof.Proof.LibSageSpec

noncomputable section

namespace Cert.Bridge

open Cert.ReferenceIdeal Cert.ReferenceIdeal.Gen Idealize.ShloMosaic Idealize.ShloMosaic.ValueIdx Idealize.ShloMosaic.SageSpec

/-- Rows of xs against columns of wt, when xs is x and wt is w transposed, is the reference's product of x and w
    contracting both second axes. -/
theorem rows_by_cols_eq_dotGeneral (x : FVec Ideal S50000x512 .f32) (w : FVec Ideal S512x512 .f32)
    (xs : S50000x512.Idx → EReal) (wt : S512x512.Idx → EReal) (hxs : ∀ j, xs j = x j)
    (hwt : ∀ κ o : Fin 512, wt (ix2 κ o) = w (ix2 o κ)) (p : Fin 50000) (q : Fin 512) :
    rowDot (n := 50000) (k := 512) (m := 512) xs wt p q
      = Host.dotGeneral dot_S50000x512_S512x512_S50000x512_1_1_0_0_n_n none x w (ix2 p q) := by
  show _ = Cert.ReferenceIdeal.Read.val_main_v0 (F := Ideal) x w (ix2 p q)
  rw [Cert.ReferenceIdeal.Read.val_main_v0_apply]
  unfold rowDot
  refine Finset.sum_congr rfl fun κ _ => ?_
  have el : Cert.ReferenceIdeal.Read.lidx_main_v0 (ix2 p q) κ = ix2 p κ := funext fun a => Fin.ext (by
    match a with
    | ⟨0, _⟩ => rfl
    | ⟨1, _⟩ => rfl)
  have er : Cert.ReferenceIdeal.Read.ridx_main_v0 (ix2 p q) κ = ix2 q κ := funext fun a => Fin.ext (by
    match a with
    | ⟨0, _⟩ => rfl
    | ⟨1, _⟩ => rfl)
  exact congrArg₂ (· * ·) ((hxs _).trans (congrArg x el.symm)) ((hwt κ q).trans (congrArg w er.symm))

end Cert.Bridge

end
-- ==== Proof.Projection.lean ====
/-
  The result array of the region is the reference's projection. After the region it holds the product of the two staged
  arrays, rows against columns; the staged left array is X and the staged right array is W transposed; and rows of X
  against columns of W transposed is the product of X and W contracting their second axes, which is how the reference
  spells the projection.
-/
import proofs.«137817_j27831388078171_1_alg».proof.Proof.KernelBlocks
import proofs.«137817_j27831388078171_1_alg».proof.Proof.HostPrefix
import proofs.«137817_j27831388078171_1_alg».proof.Proof.Bridge

noncomputable section

namespace Cert.KernelIdeal.Proj

open Cert.KernelIdeal Cert.KernelIdeal.Gen Idealize.ShloMosaic Idealize.ShloMosaic.TcCoe Idealize.SL.Sem
open Idealize.ShloMosaic.ValueIdx Idealize.ShloMosaic.SageSpec

variable (m : (ℓ : Loc nD τ sig) → Buf (Elt Ideal) ℓ)

/-- The product of the staged arrays is the reference's product of the two arguments. -/
theorem proj_eq_reference (c : Dev nD) :
    proj (V m c main_v0) (V m c main_v2)
      = Host.dotGeneral (F := Ideal) (φ₁ := .f32) (φ₂ := .f32) Cert.ReferenceIdeal.dot_S50000x512_S512x512_S50000x512_1_1_0_0_n_n none
          (m ((c : Thread nD τ).loc main_arg0)) (m ((c : Thread nD τ).loc main_arg1)) := by
  funext i
  obtain ⟨p, q, rfl⟩ : ∃ (p : Fin 50000) (q : Fin 512), i = ix2 p q := ⟨i 0, i 1, eq_ix2 i⟩
  exact Cert.Bridge.rows_by_cols_eq_dotGeneral (m ((c : Thread nD τ).loc main_arg0)) (m ((c : Thread nD τ).loc main_arg1))
    (V m c main_v0) (V m c main_v2) (left_staged m c) (right_staged m c) p q

/-- THE RESULT ARRAY of the region is the reference's projection of the arguments. -/
theorem region_result (c : Dev nD) :
    (dats m 0 c).arrAt 2 cfg0.N
      = Host.dotGeneral (F := Ideal) (φ₁ := .f32) (φ₂ := .f32) Cert.ReferenceIdeal.dot_S50000x512_S512x512_S50000x512_1_1_0_0_n_n none
          (m ((c : Thread nD τ).loc main_arg0)) (m ((c : Thread nD τ).loc main_arg1)) :=
  (final m c).trans (proj_eq_reference m c)

end Cert.KernelIdeal.Proj

end
-- ==== Proof.Tail.lean ====
/-
  The two aggregation stages both programs apply to the projected features, as one function. From the projection xp
  (50000 × 512): gather its rows at the vertex indices (a negative index counted from the end), add them up into the
  25000 hyperedge rows at the edge indices, scale hyperedge row e by degE e · wdiag e; then gather those rows at the edge
  indices, add them up into the 50000 vertex rows at the vertex indices, and scale vertex row v by degV v. Both programs
  spell these stages with the same operations, the same dimension numbers and the same literals, so what differs
  between them is only the projection they are applied to.
-/
import proofs.«137817_j27831388078171_1_alg».proof.Proof.Gen.ReferenceIdeal

noncomputable section

namespace Cert.Aggregate

open Cert.ReferenceIdeal Cert.ReferenceIdeal.Gen Idealize.ShloMosaic Idealize.ShloMosaic.TcCoe Idealize.SL.Sem

variable {F : FTy → Type} [FloatOps F]

/-- Vertex features to hyperedges and back, with the two normalisations. -/
def stages (xp : (⟨S50000x512, .f32⟩ : BufTy).Contents (Elt F)) (degE : (⟨S25000, .f32⟩ : BufTy).Contents (Elt F))
    (degV : (⟨S50000, .f32⟩ : BufTy).Contents (Elt F)) (wdiag : (⟨S25000, .f32⟩ : BufTy).Contents (Elt F))
    (vidx : (⟨S400000, .i32⟩ : BufTy).Contents (Elt F)) (eidx : (⟨S400000, .i32⟩ : BufTy).Contents (Elt F)) :
    (⟨S50000x512, .f32⟩ : BufTy).Contents (Elt F) :=
  mulf (Host.scatterAdd scatter_S50000x512_S400000x1_S400000x512_1_0_0_1 (broadcastInDim S50000x512 ![] bcast_S_S50000x512 (constant S_ .f32 0x00000000#32)) (broadcastInDim S400000x1 ![0] bcast_S400000_S400000x1_0 vidx) (Host.gather gather_S25000x512_S400000x1_S400000x512_1_0_n_n_0_1_1512 (mulf (Host.scatterAdd scatter_S25000x512_S400000x1_S400000x512_1_0_0_1 (broadcastInDim S25000x512 ![] bcast_S_S25000x512 (constant S_ .f32 0x00000000#32)) (broadcastInDim S400000x1 ![0] bcast_S400000_S400000x1_0 eidx) (Host.gather gather_S50000x512_S400000x1_S400000x512_1_0_n_n_0_1_1512 xp (broadcastInDim S400000x1 ![0] bcast_S400000_S400000x1_0 (select (cmpi .slt vidx (broadcastInDim S400000 ![] bcast_S_S400000 (constantI S_ 32 0#32))) (addi vidx (broadcastInDim S400000 ![] bcast_S_S400000 (constantI S_ 32 50000#32))) vidx)))) (broadcastInDim S25000x512 ![0, 1] bcast_S25000x1_S25000x512_0_1 (broadcastInDim S25000x1 ![0] bcast_S25000_S25000x1_0 (mulf degE wdiag)))) (broadcastInDim S400000x1 ![0] bcast_S400000_S400000x1_0 (select (cmpi .slt eidx (broadcastInDim S400000 ![] bcast_S_S400000 (constantI S_ 32 0#32))) (addi eidx (broadcastInDim S400000 ![] bcast_S_S400000 (constantI S_ 32 25000#32))) eidx)))) (broadcastInDim S50000x512 ![0, 1] bcast_S50000x1_S50000x512_0_1 (broadcastInDim S50000x1 ![0] bcast_S50000_S50000x1_0 degV))

end Cert.Aggregate

end
-- ==== Proof.KernelRun.lean ====
/-
  The idealized kernel's run with its result named. After the region the lines of the host program that follow it run
  from the region's exit contents: the region's result array holding the projection, every argument as launched. Those
  lines are the two aggregation stages, so the program's result is the stages applied to the projection and to the five
  other arguments.
-/
import proofs.«137817_j27831388078171_1_alg».proof.Proof.Projection
import proofs.«137817_j27831388078171_1_alg».proof.Proof.Tail
import Idealize.ShloMosaic.Lib.StableHlo.Run

noncomputable section

namespace Cert.KernelIdeal.Proj

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- At the region's exit its result array holds what the region left there. -/
theorem exit_result (c : Dev nD) :
    Pipeline.withArrays (cfgs 0).spec c (V0 m c) (fun w => (dats m 0 c).arrAt w (cfgs 0).N) (Proc.devRef .tc main_v3)
      = (dats m 0 c).arrAt 2 cfg0.N :=
  Pipeline.withArrays_arr spec0 launch0.win.arr_inj c _ _ 2

/-- At the region's exit an argument no window stages holds its launch contents. -/
theorem exit_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)
theorem exit_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)
theorem exit_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)
theorem exit_arg5 (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)
theorem exit_arg6 (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans
    (V_main_arg6 m c)

/-- What the lines after the region compute: the aggregation stages of what the region left and of the arguments. -/
def afterRegion (c : Dev nD) : Buf (Elt Ideal) ((c : Thread nD τ).loc main_v30) :=
  Cert.Aggregate.stages (F := Ideal) ((dats m 0 c).arrAt 2 cfg0.N)
    (m ((c : Thread nD τ).loc main_arg2)) (m ((c : Thread nD τ).loc main_arg3)) (m ((c : Thread nD τ).loc main_arg4))
    (m ((c : Thread nD τ).loc main_arg5)) (m ((c : Thread nD τ).loc main_arg6))

set_option maxHeartbeats 2000000 in
/-- The program's result buffer after the lines that follow the region. -/
theorem tail_result (c : Dev nD) :
    Pipeline.afterTail₀ cfgs (dats m) 0 (V0 m) [hostOps1] c main_v30 = afterRegion m c := by
  unfold Pipeline.afterTail₀
  simp only [hostOps1, List.flatten_cons, List.flatten_nil, List.append_nil]
  after_results_simp
  rw [exit_result m c, exit_arg2 m c, exit_arg3 m c, exit_arg4 m c, exit_arg5 m c, exit_arg6 m c]
  rfl

/-- THE RUN of the idealized kernel: it terminates, its result is the aggregation stages of the reference's projection,
    and the arguments end as launched. -/
theorem run : θ_run defs (onTc (τ := τ) (main (F := Ideal))) ⟨m, fun _ => 0, ρ⟩ fun r => ∀ c : Dev nD,
      r.2.mem ((c.tc : Thread nD τ).loc main_v30)
        = Cert.Aggregate.stages (F := Ideal)
            (Host.dotGeneral (F := Ideal) (φ₁ := .f32) (φ₂ := .f32) Cert.ReferenceIdeal.dot_S50000x512_S512x512_S50000x512_1_1_0_0_n_n none
              (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v30 (Pipeline.mem_restRefs_of main_v30 (by decide) (by decide))).trans (tail_result m c)).trans
        (by unfold afterRegion; rw [region_result m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Proj

end
-- ==== Proof.lean ====
/-
  A hypergraph convolution: project the 50000 vertex features by a 512 × 512 weight matrix, add the projected rows up
  into 25000 hyperedges and scale by degE · wdiag, add the hyperedge rows back up into the vertices and scale by degV.
  The kernel computes the projection on the matrix unit, 2000 rows at a time, from X and the transposed weights, both
  narrowed to bf16; the reference computes it as one product contracting the second axes of X and W. At the extended
  reals a change of format is the identity, each block of rows is written back exactly once and the 25 blocks tile the
  rows, so both projections are the matrix whose entry (n, o) is the sum over κ of X (n, κ) · W (o, κ), term by term.
  The two aggregation stages that follow are spelt identically in both programs, so the results agree; nothing in the
  argument uses that the inputs are finite, nor anything about the index arrays.
  The frames of the two kernel programs are the generated ones; the reference's is its generated run with the result
  dropped; the idealization rewrote no operation, so there is nothing to preserve.
-/
import proofs.«137817_j27831388078171_1_alg».proof.Defs
import proofs.«137817_j27831388078171_1_alg».proof.Proof.Gen.Kernel
import proofs.«137817_j27831388078171_1_alg».proof.Proof.Gen.Kernel.Skeleton
import proofs.«137817_j27831388078171_1_alg».proof.Proof.Gen.Kernel.Launch
import proofs.«137817_j27831388078171_1_alg».proof.Proof.Gen.Kernel.Points
import proofs.«137817_j27831388078171_1_alg».proof.Proof.Gen.Kernel.Frame
import proofs.«137817_j27831388078171_1_alg».proof.Proof.Gen.KernelIdeal
import proofs.«137817_j27831388078171_1_alg».proof.Proof.Gen.KernelIdeal.Skeleton
import proofs.«137817_j27831388078171_1_alg».proof.Proof.Gen.KernelIdeal.Launch
import proofs.«137817_j27831388078171_1_alg».proof.Proof.Gen.KernelIdeal.Points
import proofs.«137817_j27831388078171_1_alg».proof.Proof.Gen.KernelIdeal.Frame
import proofs.«137817_j27831388078171_1_alg».proof.Proof.Gen.ReferenceIdeal
import proofs.«137817_j27831388078171_1_alg».proof.Proof.Gen.ReferenceIdeal.Run
import proofs.«137817_j27831388078171_1_alg».proof.Proof.Gen.ReferenceIdeal.Read
import proofs.«137817_j27831388078171_1_alg».proof.Proof.Gen.Pre_finite_inputs
import proofs.«137817_j27831388078171_1_alg».proof.Proof.KernelRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the aggregation stages of the one projection. -/
theorem algebraic : Cert.algebraic_KernelIdeal_ReferenceIdeal := by
  intro m ρ m' ρ' _ hagree
  refine ⟨_, Cert.KernelIdeal.Proj.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
